-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 105
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S_, .f32⟩
  | .hbm, ⟨88, _⟩ => ⟨S256x64, .f32⟩
  | .hbm, ⟨89, _⟩ => ⟨S100000x1, .i32⟩
  | .hbm, ⟨90, _⟩ => ⟨S256x64, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S256, .f32⟩
  | .hbm, ⟨95, _⟩ => ⟨S100000x1, .i32⟩
  | .hbm, ⟨96, _⟩ => ⟨S256, .f32⟩
  | .hbm, ⟨97, _⟩ => ⟨S_, .f32⟩
  | .hbm, ⟨98, _⟩ => ⟨S256, .f32⟩
  | .hbm, ⟨99, _⟩ => ⟨S256, .f32⟩
  | .hbm, ⟨100, _⟩ => ⟨S256x1, .f32⟩
  | .hbm, ⟨101, _⟩ => ⟨S256x64, .f32⟩
  | .hbm, ⟨102, _⟩ => ⟨S256x64, .f32⟩
  | .hbm, ⟨103, _⟩ => ⟨S1x1, .f32⟩
  | .hbm, ⟨104, _⟩ => ⟨S256, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S256x64, .f32⟩
  | .local _ .vmem, ⟨21, _⟩ => ⟨S64x1, .f32⟩
  | .local _ .vmem, ⟨22, _⟩ => ⟨S1x1, .f32⟩
  | .local _ .vmem, ⟨23, _⟩ => ⟨S256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

abbrev stage4_0 : Fin 1 → Memref sig .tc .vmem S256x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  shapeCasts_S256x1_S256 : S256x1.ShapeCasts S256
  inb_S256_S256_0 : ∀ a, (![0] : Fin 1 → Nat) a + S256.size a ≤ S256.size a
  h_S256 : 0 < S256.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x64.size a ≤ S256x64.size a
  hwx4_0 : ∀ i : grid4.Coords, EltTy.bits .f32 = 32 ∨ (Rect.block (s := S256x64) S256x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256.size a ≤ S256.size a
  hwx4_3 : ∀ i : grid4.Coords, EltTy.bits .f32 = 32 ∨ (Rect.block (s := S256) S256.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S256x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S256.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S256x64, .f32⟩
  | .hbm, ⟨97, _⟩ => ⟨S100000x1, .i32⟩
  | .hbm, ⟨98, _⟩ => ⟨S256x64, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S256, .f32⟩
  | .hbm, ⟨103, _⟩ => ⟨S100000x1, .i32⟩
  | .hbm, ⟨104, _⟩ => ⟨S256, .f32⟩
  | .hbm, ⟨105, _⟩ => ⟨S_, .f32⟩
  | .hbm, ⟨106, _⟩ => ⟨S256, .f32⟩
  | .hbm, ⟨107, _⟩ => ⟨S256, .f32⟩
  | .hbm, ⟨108, _⟩ => ⟨S256x1, .f32⟩
  | .hbm, ⟨109, _⟩ => ⟨S256x64, .f32⟩
  | .hbm, ⟨110, _⟩ => ⟨S256x64, .f32⟩
  | .hbm, ⟨111, _⟩ => ⟨S256x1, .f32⟩
  | .hbm, ⟨112, _⟩ => ⟨S1x1, .f32⟩
  | .hbm, ⟨113, _⟩ => ⟨S256x1, .f32⟩
  | .hbm, ⟨114, _⟩ => ⟨S256x1, .f32⟩
  | .hbm, ⟨115, _⟩ => ⟨S256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x1_S256x1_1_0_0_1_n_n_wf : DotDims.WF S256x64 S64x1 S256x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.Persist.lean ====
import proofs.«108966_j77704548319407_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Stages

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-! Buffers that no segment between two boundaries writes hold at the later boundary what they held at the earlier one. -/

/-! ### The host stretches

Each host stretch writes the result references of its operations and nothing else; a reference outside that list
holds after the stretch what it held before. One such fact per stretch, for any reference and any contents before. -/

/-- The references written by the host stretch between region 0's exit and region 1's entry. -/
private abbrev written1 : List (Ref sig .tc) :=
  [main_c_6, main_v31, main_v32, main_c_7, main_v33, main_v34, main_v35, main_v36, main_v37, main_v38, main_v39,
    main_v40, main_cst_8, main_v41, main_v42, main_v43, main_v44]

/-- The references written by the host stretch between region 2's exit and region 3's entry. -/
private abbrev written3 : List (Ref sig .tc) :=
  [main_c_9, main_v47, main_v48, main_c_10, main_v49, main_v50, main_v51, main_v52, main_v53, main_v54, main_v55,
    main_v56, main_cst_11, main_v57, main_v58, main_v59, main_v60]

/-- The references written by the host stretch between region 3's exit and region 4's entry. -/
private abbrev written4 : List (Ref sig .tc) :=
  [main_cst_12, main_v62, main_v63, main_v64, main_cst_13, main_v65, main_cst_14, main_v66, main_v67, main_v68,
    main_cst_15, main_v69, main_v70, main_v71, main_v72, main_v73, main_v74]

private theorem host1_keep (V : Valuation τ sig (Elt Ideal)) {r : Ref sig .tc} (hr : r ∉ written1) :
    StableHlo.after hostOps1 V (Proc.devRef .tc r) = V (Proc.devRef .tc r) :=
  StableHlo.after_of_writes_sub hostOps1 V (by
    simp only [hostOps1, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

private theorem host3_keep (V : Valuation τ sig (Elt Ideal)) {r : Ref sig .tc} (hr : r ∉ written3) :
    StableHlo.after hostOps3 V (Proc.devRef .tc r) = V (Proc.devRef .tc r) :=
  StableHlo.after_of_writes_sub hostOps3 V (by
    simp only [hostOps3, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

private theorem host4_keep (V : Valuation τ sig (Elt Ideal)) {r : Ref sig .tc} (hr : r ∉ written4) :
    StableHlo.after hostOps4 V (Proc.devRef .tc r) = V (Proc.devRef .tc r) :=
  StableHlo.after_of_writes_sub hostOps4 V (by
    simp only [hostOps4, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

/-! ### The chains, one step per boundary

A region's exit differs from its entry at the region's own arrays only; a host stretch's exit differs from its
entry at the references it writes only. A reference that is none of these, for every segment between boundary 3
and boundary k, holds at boundary k what it held at boundary 3. -/

private theorem W6_keep {r : Ref sig .tc} (h0 : ∀ w, Pipeline.arrRef spec0 w ≠ r) (h1 : r ∉ written1)
    (h2 : ∀ w, Pipeline.arrRef spec1 w ≠ r) :
    W6 m ρ c (Proc.devRef .tc r) = W3 m ρ c (Proc.devRef .tc r) :=
  calc W6 m ρ c (Proc.devRef .tc r)
    _ = W5 m ρ c (Proc.devRef .tc r) := W6_of_ne m ρ c r h2
    _ = W4 m ρ c (Proc.devRef .tc r) := host1_keep (W4 m ρ c) h1
    _ = W3 m ρ c (Proc.devRef .tc r) := W4_of_ne m ρ c r h0

private theorem W7_keep {r : Ref sig .tc} (h0 : ∀ w, Pipeline.arrRef spec0 w ≠ r) (h1 : r ∉ written1)
    (h2 : ∀ w, Pipeline.arrRef spec1 w ≠ r) (h3 : ∀ w, Pipeline.arrRef spec2 w ≠ r) :
    W7 m ρ c (Proc.devRef .tc r) = W3 m ρ c (Proc.devRef .tc r) :=
  (W7_of_ne m ρ c r h3).trans (W6_keep m ρ c h0 h1 h2)

private theorem W9_keep {r : Ref sig .tc} (h0 : ∀ w, Pipeline.arrRef spec0 w ≠ r) (h1 : r ∉ written1)
    (h2 : ∀ w, Pipeline.arrRef spec1 w ≠ r) (h3 : ∀ w, Pipeline.arrRef spec2 w ≠ r) (h4 : r ∉ written3)
    (h5 : ∀ w, Pipeline.arrRef spec3 w ≠ r) :
    W9 m ρ c (Proc.devRef .tc r) = W3 m ρ c (Proc.devRef .tc r) :=
  calc W9 m ρ c (Proc.devRef .tc r)
    _ = W8 m ρ c (Proc.devRef .tc r) := W9_of_ne m ρ c r h5
    _ = W7 m ρ c (Proc.devRef .tc r) := host3_keep (W7 m ρ c) h4
    _ = W3 m ρ c (Proc.devRef .tc r) := W7_keep m ρ c h0 h1 h2 h3

private theorem W10_keep {r : Ref sig .tc} (h0 : ∀ w, Pipeline.arrRef spec0 w ≠ r) (h1 : r ∉ written1)
    (h2 : ∀ w, Pipeline.arrRef spec1 w ≠ r) (h3 : ∀ w, Pipeline.arrRef spec2 w ≠ r) (h4 : r ∉ written3)
    (h5 : ∀ w, Pipeline.arrRef spec3 w ≠ r) (h6 : r ∉ written4) :
    W10 m ρ c (Proc.devRef .tc r) = W3 m ρ c (Proc.devRef .tc r) :=
  (host4_keep (W9 m ρ c) h6).trans (W9_keep m ρ c h0 h1 h2 h3 h4 h5)

/-! ### The twelve facts -/

theorem W4_keep_v5 : W4 m ρ c (Proc.devRef .tc main_v5) = W3 m ρ c (Proc.devRef .tc main_v5) :=
  W4_of_ne m ρ c main_v5 (by decide)

theorem W4_keep_v6 : W4 m ρ c (Proc.devRef .tc main_v6) = W3 m ρ c (Proc.devRef .tc main_v6) :=
  W4_of_ne m ρ c main_v6 (by decide)

theorem W4_keep_v29 : W4 m ρ c (Proc.devRef .tc main_v29) = W3 m ρ c (Proc.devRef .tc main_v29) :=
  W4_of_ne m ρ c main_v29 (by decide)

theorem W4_keep_arg4 : W4 m ρ c (Proc.devRef .tc main_arg4) = W3 m ρ c (Proc.devRef .tc main_arg4) :=
  W4_of_ne m ρ c main_arg4 (by decide)

theorem W6_keep_arg5 : W6 m ρ c (Proc.devRef .tc main_arg5) = W3 m ρ c (Proc.devRef .tc main_arg5) :=
  W6_keep m ρ c (by decide) (by decide) (by decide)

theorem W7_keep_v5 : W7 m ρ c (Proc.devRef .tc main_v5) = W3 m ρ c (Proc.devRef .tc main_v5) :=
  W7_keep m ρ c (by decide) (by decide) (by decide) (by decide)

theorem W7_keep_v6 : W7 m ρ c (Proc.devRef .tc main_v6) = W3 m ρ c (Proc.devRef .tc main_v6) :=
  W7_keep m ρ c (by decide) (by decide) (by decide) (by decide)

theorem W7_keep_v29 : W7 m ρ c (Proc.devRef .tc main_v29) = W3 m ρ c (Proc.devRef .tc main_v29) :=
  W7_keep m ρ c (by decide) (by decide) (by decide) (by decide)

theorem W7_keep_arg6 : W7 m ρ c (Proc.devRef .tc main_arg6) = W3 m ρ c (Proc.devRef .tc main_arg6) :=
  W7_keep m ρ c (by decide) (by decide) (by decide) (by decide)

theorem W9_keep_arg2 : W9 m ρ c (Proc.devRef .tc main_arg2) = W3 m ρ c (Proc.devRef .tc main_arg2) :=
  W9_keep m ρ c (by decide) (by decide) (by decide) (by decide) (by decide) (by decide)

theorem W9_keep_arg8 : W9 m ρ c (Proc.devRef .tc main_arg8) = W3 m ρ c (Proc.devRef .tc main_arg8) :=
  W9_keep m ρ c (by decide) (by decide) (by decide) (by decide) (by decide) (by decide)

theorem W10_keep_arg7 : W10 m ρ c (Proc.devRef .tc main_arg7) = W3 m ρ c (Proc.devRef .tc main_arg7) :=
  W10_keep m ρ c (by decide) (by decide) (by decide) (by decide) (by decide) (by decide) (by decide)

end Cert.KernelIdeal.Stages

end
-- ==== Proof.HostEntry.lean ====
import proofs.«108966_j77704548319407_1_alg».proof.Proof.Gen.KernelIdeal.Frame
import proofs.«108966_j77704548319407_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Stages

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! The buffer contents when the first region is entered, after the three leading stretches of host operations
    (forty operations on the edge list: the source and destination lists with one self loop per node appended, the
    in-degrees by a scatter-add of ones, their inverse square roots where positive, gathered at both ends of every
    edge and multiplied). No operation writes an argument, so the arguments are as launched; and the operations are
    the reference's own first forty, so the edge lists and the normalisation are the reference's stages of the edge
    argument. Stated for any float family: nothing here depends on what a float is. -/

section AnyFloat

variable {F : FTy → Type} [FloatOps F]
variable (m : (ℓ : Loc nD τ sig) → Buf (Elt F) ℓ) (ρ : Dev nD → PrngReg) (c : Dev nD)

private theorem entry_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  dsimp only [hostOps0_2, hostOps0_1, hostOps0]
  after_results_simp

private theorem entry_arg1 : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  dsimp only [hostOps0_2, hostOps0_1, hostOps0]
  after_results_simp

private theorem entry_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  dsimp only [hostOps0_2, hostOps0_1, hostOps0]
  after_results_simp

private theorem entry_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  dsimp only [hostOps0_2, hostOps0_1, hostOps0]
  after_results_simp

private theorem entry_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  dsimp only [hostOps0_2, hostOps0_1, hostOps0]
  after_results_simp

private theorem entry_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  dsimp only [hostOps0_2, hostOps0_1, hostOps0]
  after_results_simp

private theorem entry_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  dsimp only [hostOps0_2, hostOps0_1, hostOps0]
  after_results_simp

private theorem entry_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  dsimp only [hostOps0_2, hostOps0_1, hostOps0]
  after_results_simp

private theorem entry_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  dsimp only [hostOps0_2, hostOps0_1, hostOps0]
  after_results_simp

private theorem entry_v5 : W3 m ρ c (Proc.devRef .tc main_v5) = Cert.ReferenceIdeal.ReadP.val_main_v5 (F := F) (m ((c : Thread nD τ).loc main_arg1)) := by
  show StableHlo.after hostOps0_2 (StableHlo.after hostOps0_1 (StableHlo.after hostOps0 (W0 m ρ c))) (Proc.devRef .tc main_v5) = _
  dsimp only [hostOps0_2, hostOps0_1, hostOps0]
  after_results_simp
  rfl

private theorem entry_v6 : W3 m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  dsimp only [hostOps0_2, hostOps0_1, hostOps0]
  after_results_simp
  rfl

private theorem entry_v29 : W3 m ρ c (Proc.devRef .tc main_v29) = Cert.ReferenceIdeal.ReadP.val_main_v29 (F := F) (m ((c : Thread nD τ).loc main_arg1)) := by
  show StableHlo.after hostOps0_2 (StableHlo.after hostOps0_1 (StableHlo.after hostOps0 (W0 m ρ c))) (Proc.devRef .tc main_v29) = _
  dsimp only [hostOps0_2, hostOps0_1, hostOps0]
  after_results_simp
  rfl

end AnyFloat

variable (m : (ℓ : Loc nD τ sig) → Buf (Elt Ideal) ℓ) (ρ : Dev nD → PrngReg) (c : Dev nD)

theorem W3_arg0 : W3 m ρ c (Proc.devRef .tc main_arg0) = (m ((c : Thread nD τ).loc main_arg0)) := entry_arg0 m ρ c

theorem W3_arg1 : W3 m ρ c (Proc.devRef .tc main_arg1) = (m ((c : Thread nD τ).loc main_arg1)) := entry_arg1 m ρ c

theorem W3_arg2 : W3 m ρ c (Proc.devRef .tc main_arg2) = (m ((c : Thread nD τ).loc main_arg2)) := entry_arg2 m ρ c

theorem W3_arg3 : W3 m ρ c (Proc.devRef .tc main_arg3) = (m ((c : Thread nD τ).loc main_arg3)) := entry_arg3 m ρ c

theorem W3_arg4 : W3 m ρ c (Proc.devRef .tc main_arg4) = (m ((c : Thread nD τ).loc main_arg4)) := entry_arg4 m ρ c

theorem W3_arg5 : W3 m ρ c (Proc.devRef .tc main_arg5) = (m ((c : Thread nD τ).loc main_arg5)) := entry_arg5 m ρ c

theorem W3_arg6 : W3 m ρ c (Proc.devRef .tc main_arg6) = (m ((c : Thread nD τ).loc main_arg6)) := entry_arg6 m ρ c

theorem W3_arg7 : W3 m ρ c (Proc.devRef .tc main_arg7) = (m ((c : Thread nD τ).loc main_arg7)) := entry_arg7 m ρ c

theorem W3_arg8 : W3 m ρ c (Proc.devRef .tc main_arg8) = (m ((c : Thread nD τ).loc main_arg8)) := entry_arg8 m ρ c

theorem W3_v5 : W3 m ρ c (Proc.devRef .tc main_v5) = Cert.ReferenceIdeal.ReadP.val_main_v5 (F := Ideal) (m ((c : Thread nD τ).loc main_arg1)) := entry_v5 m ρ c

theorem W3_v6 : W3 m ρ c (Proc.devRef .tc main_v6) = Cert.ReferenceIdeal.ReadP.val_main_v6 (F := Ideal) (m ((c : Thread nD τ).loc main_arg1)) := entry_v6 m ρ c

theorem W3_v29 : W3 m ρ c (Proc.devRef .tc main_v29) = Cert.ReferenceIdeal.ReadP.val_main_v29 (F := Ideal) (m ((c : Thread nD τ).loc main_arg1)) := entry_v29 m ρ c

end Cert.KernelIdeal.Stages

end
-- ==== Proof.HostLayers.lean ====
import proofs.«108966_j77704548319407_1_alg».proof.Proof.Gen.KernelIdeal.Frame
import proofs.«108966_j77704548319407_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Stages

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-! The three stretches of host operations between the regions, each read against the reference's stages: the
    message passing after each feature product (gather by source, scale by the normalisation, scatter-add by
    destination), and the mean pooling by graph. -/

theorem W5_v43
    (h30 : W4 m ρ c (Proc.devRef .tc main_v30) = Cert.ReferenceIdeal.ReadP.val_main_v30 (F := Ideal) (m ((c : Thread nD τ).loc main_arg0)) (m ((c : Thread nD τ).loc main_arg3)))
    (h5 : W4 m ρ c (Proc.devRef .tc main_v5) = Cert.ReferenceIdeal.ReadP.val_main_v5 (F := Ideal) (m ((c : Thread nD τ).loc main_arg1)))
    (h6 : W4 m ρ c (Proc.devRef .tc main_v6) = Cert.ReferenceIdeal.ReadP.val_main_v6 (F := Ideal) (m ((c : Thread nD τ).loc main_arg1)))
    (h29 : W4 m ρ c (Proc.devRef .tc main_v29) = Cert.ReferenceIdeal.ReadP.val_main_v29 (F := Ideal) (m ((c : Thread nD τ).loc main_arg1))) :
    W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg3)) := by
  show StableHlo.after hostOps1 (W4 m ρ c) (Proc.devRef .tc main_v43) = _
  dsimp only [hostOps1]
  after_results_simp
  rw [h30, h5, h6, h29]
  rfl

theorem W5_v44 (h4 : W4 m ρ c (Proc.devRef .tc main_arg4) = (m ((c : Thread nD τ).loc main_arg4))) :
    W5 m ρ c (Proc.devRef .tc main_v44) = shapeCast S1x64 (m ((c : Thread nD τ).loc main_arg4)) shapeCasts_S64_S1x64 := by
  show StableHlo.after hostOps1 (W4 m ρ c) (Proc.devRef .tc main_v44) = _
  dsimp only [hostOps1]
  after_results
  rw [h4]
  rfl

theorem W8_v59
    (h46 : W7 m ρ c (Proc.devRef .tc main_v46) = Cert.ReferenceIdeal.ReadP.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)))
    (h5 : W7 m ρ c (Proc.devRef .tc main_v5) = Cert.ReferenceIdeal.ReadP.val_main_v5 (F := Ideal) (m ((c : Thread nD τ).loc main_arg1)))
    (h6 : W7 m ρ c (Proc.devRef .tc main_v6) = Cert.ReferenceIdeal.ReadP.val_main_v6 (F := Ideal) (m ((c : Thread nD τ).loc main_arg1)))
    (h29 : W7 m ρ c (Proc.devRef .tc main_v29) = Cert.ReferenceIdeal.ReadP.val_main_v29 (F := Ideal) (m ((c : Thread nD τ).loc main_arg1))) :
    W8 m ρ c (Proc.devRef .tc main_v59) = Cert.ReferenceIdeal.ReadP.val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W7 m ρ c) (Proc.devRef .tc main_v59) = _
  dsimp only [hostOps3]
  after_results_simp
  rw [h46, h5, h6, h29]
  rfl

theorem W8_v60 (h6 : W7 m ρ c (Proc.devRef .tc main_arg6) = (m ((c : Thread nD τ).loc main_arg6))) :
    W8 m ρ c (Proc.devRef .tc main_v60) = shapeCast S1x64 (m ((c : Thread nD τ).loc main_arg6)) shapeCasts_S64_S1x64 := by
  show StableHlo.after hostOps3 (W7 m ρ c) (Proc.devRef .tc main_v60) = _
  dsimp only [hostOps3]
  after_results
  rw [h6]
  rfl

theorem W10_v73
    (h61 : W9 m ρ c (Proc.devRef .tc main_v61) = Cert.ReferenceIdeal.ReadP.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
    (h2 : W9 m ρ c (Proc.devRef .tc main_arg2) = (m ((c : Thread nD τ).loc main_arg2))) :
    W10 m ρ c (Proc.devRef .tc main_v73) = Cert.ReferenceIdeal.ReadP.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W9 m ρ c) (Proc.devRef .tc main_v73) = _
  dsimp only [hostOps4]
  after_results_simp
  rw [h61, h2]
  rfl

theorem W10_v74 (h8 : W9 m ρ c (Proc.devRef .tc main_arg8) = (m ((c : Thread nD τ).loc main_arg8))) :
    W10 m ρ c (Proc.devRef .tc main_v74) = shapeCast S1x1 (m ((c : Thread nD τ).loc main_arg8)) shapeCasts_S1_S1x1 := by
  show StableHlo.after hostOps4 (W9 m ρ c) (Proc.devRef .tc main_v74) = _
  dsimp only [hostOps4]
  after_results
  rw [h8]
  rfl

end Cert.KernelIdeal.Stages

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.RegionMatmul.lean ====
import proofs.«108966_j77704548319407_1_alg».proof.Proof.Gen.KernelIdeal.Frame
import proofs.«108966_j77704548319407_1_alg».proof.Proof.LibDot2
import Idealize.ShloMosaic.Lib.Pipeline.Value
import Idealize.ShloMosaic.Lib.ValueIdx
import Idealize.ShloMosaic.Lib.ValueLayout
import Idealize.ShloMosaic.PureOps.Ideal.Laws

/-
  The two feature matrix products, tiled by rows.

  Each of the two regions multiplies an `[100000, K]` array `X` by a `[K, 64]` array `W`
  (`K = 128` in the first, `K = 64` in the second) over a grid of 20 points. Point `t` reads
  rows `5000 t … 5000 t + 4999` of `X` and the whole of `W`, and writes rows
  `5000 t … 5000 t + 4999` of the result. At the ideal instance the body's value at block
  coordinates `(p, q)` is
      ∑ k, X[5000 t + p, k] * W[k, q],
  which is entry `(5000 t + p, q)` of the product `X · W` of the whole arrays. The 20 row
  blocks tile the 100000 rows (row `r` lies in block `r / 5000`), so the result array after
  the last point is `X · W`.
-/

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/- The TensorCore's buffer contents when the region is entered. -/
variable (V : (c : Dev nD) → (b : Ref sig .tc) → Buf (Elt Ideal) ((c : Thread nD τ).loc b))

/-- The offsets `(0, 0)` are the zero offsets. -/
private theorem zero_offsets : (![0, 0] : Fin 2 → Nat) = fun _ => 0 :=
  funext fun a => by fin_cases a <;> rfl

/-! ## The first product: `[100000, 128] · [128, 64]` -/

/-- The body's dimension numbers are those of the plain matrix product of `[5000, 128]` by
    `[128, 64]`. -/
private theorem dims0_eq : dot_S5000x128_S128x64_S5000x64_1_0_0_1_n_n
    = Dot2.mmDims 5000 128 64 dot_S5000x128_S128x64_S5000x64_1_0_0_1_n_n_wf := rfl

/-- At grid point `t` the left operand's and the result's row block is block `t`, their
    column block is block 0, and the right operand's block is block `(0, 0)`: the whole array. -/
private theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has 20 points. -/
private theorem point0_lt (t : Fin cfg0.N) : t.val < 20 := t.isLt.trans_eq N_0

/-- The body's value at `(p, q)`, from its two loaded blocks: `∑ k, x[p, k] * w[k, q]` (the
    narrowing of the operands is the identity at the ideal instance, and the accumulator is zero). -/
private theorem body0_apply (x : Vec Ideal S5000x128 .f32) (w : Vec Ideal S128x64 .f32)
    (p : Fin 5000) (q : Fin 64) :
    k0_pay1 x w (ix2 p q) = ∑ k : Fin 128, x (ix2 p k) * w (ix2 k q) := by
  unfold k0_pay1
  rw [dims0_eq]
  exact Dot2.matmul_zero_mm_apply _ none _ _ p q

/-- What point `t` writes back is row block `t` of the product of the whole arrays: at block
    coordinates `(p, q)` both are `∑ k, X[5000 t + p, k] * W[k, q]`. -/
private theorem rowBlock0_eq
    (wf : DotDims.WF ⟨2, ![100000, 128]⟩ ⟨2, ![128, 64]⟩ ⟨2, ![100000, 64]⟩ [1] [0] [0] [1] [] [])
    (c : Dev nD) (t : Fin cfg0.N) :
    (dat0 (F := Ideal) V c).flushed 2 t
      = ((cfg0.win 2).blk t).view.read (Elt Ideal)
          (Host.dotGeneral (F := Ideal) (φ₁ := .f32) (φ₂ := .f32) (Dot2.mmDims 100000 128 64 wf) none
            (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  obtain ⟨e0, e1, e2, e3, e4, e5⟩ := blockIndex0 t
  have ht := point0_lt t
  funext j
  obtain ⟨p, q, rfl⟩ : ∃ (p : Fin 5000) (q : Fin 64), j = ix2 p q :=
    ⟨j 0, j 1, eq_ix2 (n0 := 5000) (n1 := 64) j⟩
  have hp : t.val * 5000 + p.val < 100000 := by have := p.isLt; omega
  show k0_pay1 (iblk0 V c 0 t) (iblk0 V c 1 t) (ix2 p q)
    = Host.dotGeneral (F := Ideal) (φ₁ := .f32) (φ₂ := .f32) (Dot2.mmDims 100000 128 64 wf) none
        (V c main_arg0) (V c main_arg3) (((cfg0.win 2).blk t).view.emb (ix2 p q))
  -- the result block's entry (p, q) sits at (5000 t + p, q) of the result array
  have hy : ((cfg0.win 2).blk t).view.emb (ix2 p q)
      = (ix2 (⟨t.val * 5000 + p.val, hp⟩ : Fin 100000) q : S100000x64.Idx) := by
    funext a; apply Fin.ext
    match a with
    | ⟨0, _⟩ => show win0_2.index t (0 : Fin 2) * 5000 + 1 * p.val = t.val * 5000 + p.val; rw [e4]; omega
    | ⟨1, _⟩ => show win0_2.index t (1 : Fin 2) * 64 + 1 * q.val = q.val; rw [e5]; omega
  rw [hy, Dot2.host_dotGeneral_mm_apply, body0_apply]
  refine Finset.sum_congr rfl fun k _ => ?_
  -- the left block's entry (p, k) is X[5000 t + p, k]
  have hx : iblk0 V c 0 t (ix2 p k)
      = V c main_arg0 (ix2 (⟨t.val * 5000 + p.val, hp⟩ : Fin 100000) k : S100000x128.Idx) := by
    unfold iblk0
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; rw [e0]; omega
    | ⟨1, _⟩ => show win0_0.index t (1 : Fin 2) * 128 + 1 * k.val = k.val; rw [e1]; omega
  -- the right block is the whole of W
  have hw : iblk0 V c 1 t (ix2 k q) = V c main_arg3 (ix2 k q : S128x64.Idx) := by
    unfold iblk0
    show V c main_arg3 (((cfg0.win 1).blk t).view.emb (ix2 k q)) = _
    refine congrArg (V c main_arg3) ?_
    funext a; apply Fin.ext
    match a with
    | ⟨0, _⟩ => show win0_1.index t (0 : Fin 2) * 128 + 1 * k.val = k.val; rw [e2]; omega
    | ⟨1, _⟩ => show win0_1.index t (1 : Fin 2) * 64 + 1 * q.val = q.val; rw [e3]; omega
  rw [hx, hw]

/-- An index of the result array is in point `t`'s block iff each coordinate is in the block's
    range on its axis. -/
private theorem mem_rowBlock0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v30).slice (win0_2.rect t)).set ↔ _
  rw [View.set_slice_whole, Rect.mem_set_unit]
  exact Iff.rfl

/-- The 20 row blocks tile the result array: row `r` lies in block `r / 5000`. -/
private theorem rowBlocks0_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, e4, e5⟩ := blockIndex0 t
  refine ⟨t, flush0_2 t, ?_⟩
  rw [mem_rowBlock0]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 64 ≤ (i 1).val ∧ (i 1).val < win0_2.index t (1 : Fin 2) * 64 + 64
    rw [e5]; omega

theorem region0_value (wf : DotDims.WF ⟨2, ![100000, 128]⟩ ⟨2, ![128, 64]⟩ ⟨2, ![100000, 64]⟩ [1] [0] [0] [1] [] [])
    (c : Dev nD) :
    (dat0 (F := Ideal) V c).arrAt 2 cfg0.N
      = Host.dotGeneral (F := Ideal) (φ₁ := .f32) (φ₂ := .f32) (Dot2.mmDims 100000 128 64 wf) none (V c main_arg0) (V c main_arg3) :=
  (dat0 (F := Ideal) V c).arrAt_eq_of_cover 2 _ (fun t _ => rowBlock0_eq V wf c t) rowBlocks0_cover

/-! ## The second product: `[100000, 64] · [64, 64]` -/

/-- The body's dimension numbers are those of the plain matrix product of `[5000, 64]` by
    `[64, 64]`. -/
private theorem dims2_eq : dot_S5000x64_S64x64_S5000x64_1_0_0_1_n_n
    = Dot2.mmDims 5000 64 64 dot_S5000x64_S64x64_S5000x64_1_0_0_1_n_n_wf := rfl

/-- At grid point `t` the left operand's and the result's row block is block `t`, their
    column block is block 0, and the right operand's block is block `(0, 0)`: the whole array. -/
private theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The grid has 20 points. -/
private theorem point2_lt (t : Fin cfg2.N) : t.val < 20 := t.isLt.trans_eq N_2

/-- The body's value at `(p, q)`, from its two loaded blocks: `∑ k, x[p, k] * w[k, q]` (the
    reshape of the left block to its own shape and the narrowing of the operands are the identity
    at the ideal instance, and the accumulator is zero). -/
private theorem body2_apply (x : Vec Ideal S5000x64 .f32) (w : Vec Ideal S64x64 .f32)
    (p : Fin 5000) (q : Fin 64) :
    k2_pay1 x w (ix2 p q) = ∑ k : Fin 64, x (ix2 p k) * w (ix2 k q) := by
  unfold k2_pay1
  rw [dims2_eq, shapeCast_self]
  exact Dot2.matmul_zero_mm_apply _ none _ _ p q

/-- What point `t` writes back is row block `t` of the product of the whole arrays: at block
    coordinates `(p, q)` both are `∑ k, X[5000 t + p, k] * W[k, q]`. -/
private theorem rowBlock2_eq
    (wf : DotDims.WF ⟨2, ![100000, 64]⟩ ⟨2, ![64, 64]⟩ ⟨2, ![100000, 64]⟩ [1] [0] [0] [1] [] [])
    (c : Dev nD) (t : Fin cfg2.N) :
    (dat2 (F := Ideal) V c).flushed 2 t
      = ((cfg2.win 2).blk t).view.read (Elt Ideal)
          (Host.dotGeneral (F := Ideal) (φ₁ := .f32) (φ₂ := .f32) (Dot2.mmDims 100000 64 64 wf) none
            (V c main_v45) (V c main_arg5)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x64) zero_offsets]
  obtain ⟨e0, e1, e2, e3, e4, e5⟩ := blockIndex2 t
  have ht := point2_lt t
  funext j
  obtain ⟨p, q, rfl⟩ : ∃ (p : Fin 5000) (q : Fin 64), j = ix2 p q :=
    ⟨j 0, j 1, eq_ix2 (n0 := 5000) (n1 := 64) j⟩
  have hp : t.val * 5000 + p.val < 100000 := by have := p.isLt; omega
  show k2_pay1 (iblk2 V c 0 t) (iblk2 V c 1 t) (ix2 p q)
    = Host.dotGeneral (F := Ideal) (φ₁ := .f32) (φ₂ := .f32) (Dot2.mmDims 100000 64 64 wf) none
        (V c main_v45) (V c main_arg5) (((cfg2.win 2).blk t).view.emb (ix2 p q))
  -- the result block's entry (p, q) sits at (5000 t + p, q) of the result array
  have hy : ((cfg2.win 2).blk t).view.emb (ix2 p q)
      = (ix2 (⟨t.val * 5000 + p.val, hp⟩ : Fin 100000) q : S100000x64.Idx) := by
    funext a; apply Fin.ext
    match a with
    | ⟨0, _⟩ => show win2_2.index t (0 : Fin 2) * 5000 + 1 * p.val = t.val * 5000 + p.val; rw [e4]; omega
    | ⟨1, _⟩ => show win2_2.index t (1 : Fin 2) * 64 + 1 * q.val = q.val; rw [e5]; omega
  rw [hy, Dot2.host_dotGeneral_mm_apply, body2_apply]
  refine Finset.sum_congr rfl fun k _ => ?_
  -- the left block's entry (p, k) is X[5000 t + p, k]
  have hx : iblk2 V c 0 t (ix2 p k)
      = V c main_v45 (ix2 (⟨t.val * 5000 + p.val, hp⟩ : Fin 100000) k : S100000x64.Idx) := by
    unfold iblk2
    show V c main_v45 (((cfg2.win 0).blk t).view.emb (ix2 p k)) = _
    refine congrArg (V c main_v45) ?_
    funext a; apply Fin.ext
    match a with
    | ⟨0, _⟩ => show win2_0.index t (0 : Fin 2) * 5000 + 1 * p.val = t.val * 5000 + p.val; rw [e0]; omega
    | ⟨1, _⟩ => show win2_0.index t (1 : Fin 2) * 64 + 1 * k.val = k.val; rw [e1]; omega
  -- the right block is the whole of W
  have hw : iblk2 V c 1 t (ix2 k q) = V c main_arg5 (ix2 k q : S64x64.Idx) := by
    unfold iblk2
    show V c main_arg5 (((cfg2.win 1).blk t).view.emb (ix2 k q)) = _
    refine congrArg (V c main_arg5) ?_
    funext a; apply Fin.ext
    match a with
    | ⟨0, _⟩ => show win2_1.index t (0 : Fin 2) * 64 + 1 * k.val = k.val; rw [e2]; omega
    | ⟨1, _⟩ => show win2_1.index t (1 : Fin 2) * 64 + 1 * q.val = q.val; rw [e3]; omega
  rw [hx, hw]

/-- An index of the result array is in point `t`'s block iff each coordinate is in the block's
    range on its axis. -/
private theorem mem_rowBlock2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- The 20 row blocks tile the result array: row `r` lies in block `r / 5000`. -/
private theorem rowBlocks2_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, e4, e5⟩ := blockIndex2 t
  refine ⟨t, flush2_2 t, ?_⟩
  rw [mem_rowBlock2]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 64 ≤ (i 1).val ∧ (i 1).val < win2_2.index t (1 : Fin 2) * 64 + 64
    rw [e5]; omega

theorem region2_value (wf : DotDims.WF ⟨2, ![100000, 64]⟩ ⟨2, ![64, 64]⟩ ⟨2, ![100000, 64]⟩ [1] [0] [0] [1] [] [])
    (c : Dev nD) :
    (dat2 (F := Ideal) V c).arrAt 2 cfg2.N
      = Host.dotGeneral (F := Ideal) (φ₁ := .f32) (φ₂ := .f32) (Dot2.mmDims 100000 64 64 wf) none (V c main_v45) (V c main_arg5) :=
  (dat2 (F := Ideal) V c).arrAt_eq_of_cover 2 _ (fun t _ => rowBlock2_eq V wf c t) rowBlocks2_cover

end Cert.KernelIdeal.RegionValue

end
-- ==== Proof.Spec.lean ====
/-
  The two whole-array functions the network's layers compute besides a plain matrix product, at the ideal
  instance (floats are the extended reals), index by index.

  * `biasRelu X B`: to every row of `X : [100000, 64]` the one-row array `B : [1, 64]` is added, column by column,
    and the sum is cut off below at zero: `max (X[r, q] + B[0, q]) 0`.
  * `head P Wh Bh`: the pooled features `P : [256, 64]` times the one-column weight `Wh : [64, 1]`, plus the one
    scalar `Bh[0, 0]`, laid out as a vector of 256 entries: `(∑ k, P[g, k] * Wh[k, 0]) + Bh[0, 0]`.
-/
import Idealize.ShloMosaic.PureOps.Ideal
import Idealize.ShloMosaic.PureOps.Ideal.Laws
import Idealize.ShloMosaic.Lib.ValueIdx

noncomputable section

open scoped BigOperators

namespace GcnSpec

open Idealize.ShloMosaic Idealize.ShloMosaic.ValueIdx

/-- `max (X[r, q] + B[0, q]) 0` at every `(r, q)`. -/
def biasRelu (X : FVec Ideal ⟨2, ![100000, 64]⟩ .f32) (B : FVec Ideal ⟨2, ![1, 64]⟩ .f32) :
    FVec Ideal ⟨2, ![100000, 64]⟩ .f32 :=
  fun i => FloatOps.maximumf (FloatOps.addf (X i) (B (ix2 (0 : Fin 1) (i 1)))) (FloatOps.ofBits .f32 0x00000000#32)

/-- `(∑ k, P[g, k] * Wh[k, 0]) + Bh[0, 0]` at every `g`. -/
def head (P : FVec Ideal ⟨2, ![256, 64]⟩ .f32) (Wh : FVec Ideal ⟨2, ![64, 1]⟩ .f32) (Bh : FVec Ideal ⟨2, ![1, 1]⟩ .f32) :
    FVec Ideal ⟨1, ![256]⟩ .f32 :=
  fun i => FloatOps.addf (∑ k : Fin 64, P (ix2 (i 0) k) * Wh (ix2 k (0 : Fin 1))) (Bh (ix2 (0 : Fin 1) (0 : Fin 1)))

end GcnSpec

end
-- ==== Proof.RegionBias.lean ====
import proofs.«108966_j77704548319407_1_alg».proof.Proof.Gen.KernelIdeal.Frame
import proofs.«108966_j77704548319407_1_alg».proof.Proof.Spec
import Idealize.ShloMosaic.Lib.Pipeline.Value
import Idealize.ShloMosaic.Lib.ValueIdx
import Idealize.ShloMosaic.Lib.ValueLayout
import Idealize.ShloMosaic.PureOps.Ideal.Laws

/-
  The two bias-and-cut-off regions (regions 1 and 3 of the network), from blocks to the array.

  Each region runs over twenty grid points. At point `t` its body reads rows `5000 t … 5000 t + 4999` of the feature
  array `X : [100000, 64]` and the whole bias array `B : [1, 64]`, and leaves `max (X[r, q] + B[0, q]) 0` in the same
  rows of the output array. So what point `t` writes back is block `t` of ONE whole-array function of `X` and `B`,
  `GcnSpec.biasRelu X B`; the twenty blocks tile the output array (row `r` lies in block `r / 5000`), so after the
  last point the output array is `GcnSpec.biasRelu X B`. The two regions have the same shapes and bodies and differ
  only in which arrays they read and write; the second is proved by the same steps as the first.
-/

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The zero offsets of a whole-block access, however the two zeros are spelt. -/
private theorem zero_offsets : (![0, 0] : Fin 2 → Nat) = fun _ => 0 := funext fun a => by fin_cases a <;> rfl

/-! ## Region 1 -/

/-- The bias row is added to every row of the block and the sum is cut off below at zero: the body's result at
    row `p`, column `q` of its block. -/
private theorem biasRelu_block1 (x0 : Vec Ideal S5000x64 .f32) (x1 : Vec Ideal S1x64 .f32) (p : Fin 5000) (q : Fin 64) :
    k1_pay1 x0 x1 (ix2 p q)
      = FloatOps.maximumf (FloatOps.addf (x0 (ix2 p q)) (x1 (ix2 (0 : Fin 1) q))) (FloatOps.ofBits .f32 0x00000000#32) := by
  unfold k1_pay1
  show FloatOps.maximumf (FloatOps.addf ((shapeCast S5000x64 x0 shapeCasts_S5000x64_S5000x64 : FVec Ideal S5000x64 .f32) (ix2 p q))
      ((broadcastTo S5000x64 (shapeCast S1x64 x1 shapeCasts_S1x64_S1x64 : FVec Ideal S1x64 .f32) broadcasts_S1x64_S5000x64 : FVec Ideal S5000x64 .f32) (ix2 p q))) _ = _
  -- a cast to the same shape is the identity; the one bias row is read at the column, whatever the row
  rw [shapeCast_self, shapeCast_self, broadcastTo_1b_ab_apply]
  rfl

/-- The printed index maps, decided over the grid: at point `t` the feature window and the output window sit at row
    block `t`, column block 0; the bias window at its one block. -/
private theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An index of the array is in point `t`'s block iff each coordinate is in the block's range on its axis. -/
private theorem mem_blk1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v45).slice (win1_2.rect t)).set ↔ _
  rw [View.set_slice_whole, Rect.mem_set_unit]
  exact Iff.rfl

/-- The twenty row blocks tile the array: row `r` lies in the block of point `r / 5000`. -/
private theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, e20, e21⟩ := blockIdx1 ⟨(i 0).val / 5000, ht⟩
  have e20' : win1_2.index ⟨(i 0).val / 5000, ht⟩ (0 : Fin 2) = (i 0).val / 5000 := e20
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    omega

/- The TensorCore's buffer contents when the region is entered. -/
variable (V : (c : Dev nD) → (b : Ref sig .tc) → Buf (Elt Ideal) ((c : Thread nD τ).loc b))

/-- What point `t` writes back is block `t` of `biasRelu` of the two arrays as the region finds them. -/
private theorem flushed1_eq (c : Dev nD) (t : Fin cfg1.N) :
    (dat1 (F := Ideal) V c).flushed 2 t
      = ((cfg1.win 2).blk t).view.read (Elt Ideal) (GcnSpec.biasRelu (V c main_v43) (V c main_v44)) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S1x64) zero_offsets]
  obtain ⟨e00, e01, e10, e11, e20, e21⟩ := blockIdx1 t
  funext j
  obtain ⟨p, q, rfl⟩ : ∃ (p : Fin 5000) (q : Fin 64), j = ix2 p q := ⟨j 0, j 1, eq_ix2 j⟩
  show k1_pay1 (iblk1 V c 0 t) (iblk1 V c 1 t) (ix2 p q)
      = GcnSpec.biasRelu (V c main_v43) (V c main_v44) (((cfg1.win 2).blk t).view.emb (ix2 p q))
  rw [biasRelu_block1]
  show FloatOps.maximumf (FloatOps.addf (F := Ideal) (φ := .f32) (V c main_v43 (((cfg1.win 0).blk t).view.emb (ix2 p q)))
        (V c main_v44 (((cfg1.win 1).blk t).view.emb (ix2 (0 : Fin 1) q)))) _
      = FloatOps.maximumf (FloatOps.addf (F := Ideal) (φ := .f32) (V c main_v43 (((cfg1.win 2).blk t).view.emb (ix2 p q)))
        (V c main_v44 (ix2 (0 : Fin 1) ((((cfg1.win 2).blk t).view.emb (ix2 p q)) 1)))) _
  -- the feature block and the output block are the same rows and columns of their arrays
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  -- the bias block is the whole one-row array: its column `q` is the array's column `q`, the output's column too
  have h1 : ((cfg1.win 1).blk t).view.emb (ix2 (0 : Fin 1) q)
      = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [h0, h1] <;> rfl

/-- THE ARRAY after region 1: `biasRelu` of the feature array and the bias array as the region finds them. -/
theorem region1_value (c : Dev nD) :
    (dat1 (F := Ideal) V c).arrAt 2 cfg1.N = GcnSpec.biasRelu (V c main_v43) (V c main_v44) := by
  exact (dat1 V c).arrAt_eq_of_cover 2 (GcnSpec.biasRelu (V c main_v43) (V c main_v44)) (fun t _ => flushed1_eq V c t) cover1

/-! ## Region 3 -/

/-- The bias row is added to every row of the block and the sum is cut off below at zero: the body's result at
    row `p`, column `q` of its block. -/
private theorem biasRelu_block3 (x0 : Vec Ideal S5000x64 .f32) (x1 : Vec Ideal S1x64 .f32) (p : Fin 5000) (q : Fin 64) :
    k3_pay1 x0 x1 (ix2 p q)
      = FloatOps.maximumf (FloatOps.addf (x0 (ix2 p q)) (x1 (ix2 (0 : Fin 1) q))) (FloatOps.ofBits .f32 0x00000000#32) := by
  unfold k3_pay1
  show FloatOps.maximumf (FloatOps.addf ((shapeCast S5000x64 x0 shapeCasts_S5000x64_S5000x64 : FVec Ideal S5000x64 .f32) (ix2 p q))
      ((broadcastTo S5000x64 (shapeCast S1x64 x1 shapeCasts_S1x64_S1x64 : FVec Ideal S1x64 .f32) broadcasts_S1x64_S5000x64 : FVec Ideal S5000x64 .f32) (ix2 p q))) _ = _
  -- a cast to the same shape is the identity; the one bias row is read at the column, whatever the row
  rw [shapeCast_self, shapeCast_self, broadcastTo_1b_ab_apply]
  rfl

/-- The printed index maps, decided over the grid: at point `t` the feature window and the output window sit at row
    block `t`, column block 0; the bias window at its one block. -/
private theorem blockIdx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- An index of the array is in point `t`'s block iff each coordinate is in the block's range on its axis. -/
private theorem mem_blk3 (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v61).slice (win3_2.rect t)).set ↔ _
  rw [View.set_slice_whole, Rect.mem_set_unit]
  exact Iff.rfl

/-- The twenty row blocks tile the array: row `r` lies in the block of point `r / 5000`. -/
private theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  have ht : (i 0).val / 5000 < cfg3.N := by rw [hN]; omega
  obtain ⟨-, -, -, -, e20, e21⟩ := blockIdx3 ⟨(i 0).val / 5000, ht⟩
  have e20' : win3_2.index ⟨(i 0).val / 5000, ht⟩ (0 : Fin 2) = (i 0).val / 5000 := e20
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    omega
  | ⟨1, _⟩ =>
    show win3_2.index ⟨(i 0).val / 5000, ht⟩ (1 : Fin 2) * 64 ≤ (i 1).val
      ∧ (i 1).val < win3_2.index ⟨(i 0).val / 5000, ht⟩ (1 : Fin 2) * 64 + 64
    omega

/-- What point `t` writes back is block `t` of `biasRelu` of the two arrays as the region finds them. -/
private theorem flushed3_eq (c : Dev nD) (t : Fin cfg3.N) :
    (dat3 (F := Ideal) V c).flushed 2 t
      = ((cfg3.win 2).blk t).view.read (Elt Ideal) (GcnSpec.biasRelu (V c main_v59) (V c main_v60)) := by
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S1x64) zero_offsets]
  obtain ⟨e00, e01, e10, e11, e20, e21⟩ := blockIdx3 t
  funext j
  obtain ⟨p, q, rfl⟩ : ∃ (p : Fin 5000) (q : Fin 64), j = ix2 p q := ⟨j 0, j 1, eq_ix2 j⟩
  show k3_pay1 (iblk3 V c 0 t) (iblk3 V c 1 t) (ix2 p q)
      = GcnSpec.biasRelu (V c main_v59) (V c main_v60) (((cfg3.win 2).blk t).view.emb (ix2 p q))
  rw [biasRelu_block3]
  show FloatOps.maximumf (FloatOps.addf (F := Ideal) (φ := .f32) (V c main_v59 (((cfg3.win 0).blk t).view.emb (ix2 p q)))
        (V c main_v60 (((cfg3.win 1).blk t).view.emb (ix2 (0 : Fin 1) q)))) _
      = FloatOps.maximumf (FloatOps.addf (F := Ideal) (φ := .f32) (V c main_v59 (((cfg3.win 2).blk t).view.emb (ix2 p q)))
        (V c main_v60 (ix2 (0 : Fin 1) ((((cfg3.win 2).blk t).view.emb (ix2 p q)) 1)))) _
  -- the feature block and the output block are the same rows and columns of their arrays
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  -- the bias block is the whole one-row array: its column `q` is the array's column `q`, the output's column too
  have h1 : ((cfg3.win 1).blk t).view.emb (ix2 (0 : Fin 1) q)
      = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [h0, h1] <;> rfl

/-- THE ARRAY after region 3: `biasRelu` of the feature array and the bias array as the region finds them. -/
theorem region3_value (c : Dev nD) :
    (dat3 (F := Ideal) V c).arrAt 2 cfg3.N = GcnSpec.biasRelu (V c main_v59) (V c main_v60) := by
  exact (dat3 V c).arrAt_eq_of_cover 2 (GcnSpec.biasRelu (V c main_v59) (V c main_v60)) (fun t _ => flushed3_eq V c t) cover3

end Cert.KernelIdeal.RegionValue

end
-- ==== Proof.RegionHead.lean ====
/-
  The final linear head as ONE whole-array function of its three input arrays.

  The region has a single grid point, and at it every window's block is the whole of its array: the pooled
  features `P : [256, 64]`, the weight column `Wh : [64, 1]`, the scalar `Bh : [1, 1]` in, a vector of 256
  entries out. The body stores, over the whole output block, the payload
      reshape[256] (P · Wh + broadcast Bh),
  which at entry `g` is `(∑ k, P[g, k] * Wh[k, 0]) + Bh[0, 0]`: the reshape `[256, 1] → [256]` keeps the
  row-major position, so entry `g` reads `(g, 0)`; the product accumulated into the all-zero array is the
  contraction's sum; the broadcast of a `[1, 1]` array reads its one entry. Every index map is constantly zero,
  so an element `j` of a block sits at `0 * size + 1 * j = j` of the array: the input blocks ARE the arrays and
  the one output block covers the output array. Hence the array after the run is `GcnSpec.head P Wh Bh`.
-/
import proofs.«108966_j77704548319407_1_alg».proof.Proof.Gen.KernelIdeal.Frame
import proofs.«108966_j77704548319407_1_alg».proof.Proof.Spec
import proofs.«108966_j77704548319407_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The printed dimension numbers of the head's product are the plain matrix product's: lhs axis 1 against
    rhs axis 0, no batch axis. -/
private theorem head_dims : dot_S256x64_S64x1_S256x1_1_0_0_1_n_n
    = Dot2.mmDims 256 64 1 Facts₀.dot_S256x64_S64x1_S256x1_1_0_0_1_n_n_wf := rfl

/-- The body's payload at entry `g`: the one-column product `∑ k, x0[g, k] * x1[k, 0]` plus the scalar
    `x2[0, 0]`. The outer reshape `[256, 1] → [256]` reads `(g, 0)` (same row-major position), the reshapes to
    the same shape are the identity, and the broadcast of the `[1, 1]` array reads its one entry. -/
private theorem head_pay_apply (x0 : Vec Ideal S256x64 .f32) (x1 : Vec Ideal S64x1 .f32) (x2 : Vec Ideal S1x1 .f32)
    (g : Fin 256) :
    k4_pay1 (F := Ideal) x0 x1 x2 (ix1 g)
      = FloatOps.addf (∑ k : Fin 64, x0 (ix2 g k) * x1 (ix2 k (0 : Fin 1))) (x2 (ix2 (0 : Fin 1) (0 : Fin 1))) := by
  unfold k4_pay1
  rw [shapeCast_apply _ _ (ix1 g) (ix2 g (0 : Fin 1))
    (by rw [Shape.rowMajor_val_two, Shape.rowMajor_val_one]; show g.val * 1 + 0 = g.val; omega)]
  rw [addf_apply, shapeCast_self, shapeCast_self, head_dims]
  simp only [matmul]
  rw [Dot2.matmul_zero_mm_apply]
  rw [broadcastTo_apply _ _ (ix2 g (0 : Fin 1)) (ix2 (0 : Fin 1) (0 : Fin 1)) (by
    intro a
    match a with
    | ⟨0, _⟩ => rfl
    | ⟨1, _⟩ => rfl)]
  rfl

/-- The payload IS the head of its three operands, as whole arrays. -/
private theorem head_pay_eq (x0 : Vec Ideal S256x64 .f32) (x1 : Vec Ideal S64x1 .f32) (x2 : Vec Ideal S1x1 .f32) :
    k4_pay1 (F := Ideal) x0 x1 x2 = GcnSpec.head x0 x1 x2 := by
  funext j
  obtain ⟨g, rfl⟩ : ∃ g : Fin 256, j = ix1 g := ⟨j 0, eq_ix1 j⟩
  rw [head_pay_apply]
  rfl

/- The buffer contents when the region is entered. -/
variable (V : (c : Dev nD) → (b : Ref sig .tc) → Buf (Elt Ideal) ((c : Thread nD τ).loc b))

/-! ## From the one block to the array

The grid has one point, and every window's block there is its whole array: each index map is constantly zero,
so a block's element `j` sits at `0 * size + 1 * j = j` of the array. -/

private theorem head_zero1 : (![0] : Fin 1 → Nat) = fun _ => 0 := funext fun a => by fin_cases a <;> rfl
private theorem head_zero2 : (![0, 0] : Fin 2 → Nat) = fun _ => 0 := funext fun a => by fin_cases a <;> rfl

/-- The printed index maps at every grid point: every window's block index is zero on every axis. -/
private theorem head_idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 1) = 0 :=
  (by decide +kernel : ∀ t : Fin grid4.N, _)

/-- The pooled features' block is the whole `[256, 64]` array. -/
private theorem head_in0 (c : Dev nD) (t : Fin cfg4.N) :
    (iblk4 (F := Ideal) V c 0 t : Vec Ideal S256x64 .f32) = (V c main_v73 : Vec Ideal S256x64 .f32) := by
  obtain ⟨e00, e01, e10, e11, e20, e21, e3⟩ := head_idx_facts t
  funext j
  show V c main_v73 (((cfg4.win 0).blk t).view.emb j) = V c main_v73 j
  have h : ((cfg4.win 0).blk t).view.emb j = j := by
    funext a; apply Fin.ext
    match a with
    | ⟨0, _⟩ => show win4_0.index t (0 : Fin 2) * 256 + 1 * (j 0).val = (j 0).val; omega
    | ⟨1, _⟩ => show win4_0.index t (1 : Fin 2) * 64 + 1 * (j 1).val = (j 1).val; omega
  rw [h]

/-- The weight column's block is the whole `[64, 1]` array. -/
private theorem head_in1 (c : Dev nD) (t : Fin cfg4.N) :
    (iblk4 (F := Ideal) V c 1 t : Vec Ideal S64x1 .f32) = (V c main_arg7 : Vec Ideal S64x1 .f32) := by
  obtain ⟨e00, e01, e10, e11, e20, e21, e3⟩ := head_idx_facts t
  funext j
  show V c main_arg7 (((cfg4.win 1).blk t).view.emb j) = V c main_arg7 j
  have h : ((cfg4.win 1).blk t).view.emb j = j := by
    funext a; apply Fin.ext
    match a with
    | ⟨0, _⟩ => show win4_1.index t (0 : Fin 2) * 64 + 1 * (j 0).val = (j 0).val; omega
    | ⟨1, _⟩ => show win4_1.index t (1 : Fin 2) * 1 + 1 * (j 1).val = (j 1).val; omega
  rw [h]

/-- The scalar's block is the whole `[1, 1]` array. -/
private theorem head_in2 (c : Dev nD) (t : Fin cfg4.N) :
    (iblk4 (F := Ideal) V c 2 t : Vec Ideal S1x1 .f32) = (V c main_v74 : Vec Ideal S1x1 .f32) := by
  obtain ⟨e00, e01, e10, e11, e20, e21, e3⟩ := head_idx_facts t
  funext j
  show V c main_v74 (((cfg4.win 2).blk t).view.emb j) = V c main_v74 j
  have h : ((cfg4.win 2).blk t).view.emb j = j := by
    funext a; apply Fin.ext
    match a with
    | ⟨0, _⟩ => show win4_2.index t (0 : Fin 2) * 1 + 1 * (j 0).val = (j 0).val; omega
    | ⟨1, _⟩ => show win4_2.index t (1 : Fin 2) * 1 + 1 * (j 1).val = (j 1).val; omega
  rw [h]

/-- WHAT THE POINT WRITES BACK is its block of the head of the three arrays as the region finds them. -/
private theorem head_flushed (c : Dev nD) (t : Fin cfg4.N) :
    (dat4 (F := Ideal) V c).flushed 3 t
      = ((cfg4.win 3).blk t).view.read (Elt Ideal) (GcnSpec.head (V c main_v73) (V c main_arg7) (V c main_v74)) := by
  show (cfg4.win 3).cut (grid4.coords t) ((dat4 (F := Ideal) V c).after 3 t) = _
  rw [after4_3]
  unfold out4_3
  rw [View.canon_unit_zero head_zero1]
  simp only [View.ld_unit_zero (S := S256x64) head_zero2, View.ld_unit_zero (S := S64x1) head_zero2,
    View.ld_unit_zero (S := S1x1) head_zero2]
  rw [head_in0, head_in1, head_in2, head_pay_eq]
  obtain ⟨e00, e01, e10, e11, e20, e21, e3⟩ := head_idx_facts t
  funext j
  show GcnSpec.head (V c main_v73) (V c main_arg7) (V c main_v74) ((cfg4.win 3).xinj (grid4.coords t) j)
    = GcnSpec.head (V c main_v73) (V c main_arg7) (V c main_v74) (((cfg4.win 3).blk t).view.emb j)
  have h : (cfg4.win 3).xinj (grid4.coords t) j = ((cfg4.win 3).blk t).view.emb j := by
    funext a; apply Fin.ext
    match a with
    | ⟨0, _⟩ => show (j 0).val = win4_3.index t (0 : Fin 1) * 256 + 1 * (j 0).val; omega
  rw [h]

/-- An index of the output array is in the point's block iff its coordinate is in the block's range. -/
private theorem head_mem_blk (t : Fin cfg4.N) (i : S256.Idx) :
    i ∈ ((cfg4.win 3).blk t).view.set
      ↔ ∀ a : Fin 1, win4_3.index t a * S256.size a ≤ (i a).val ∧ (i a).val < win4_3.index t a * S256.size a + S256.size a := by
  show i ∈ ((View.whole main_v75).slice (win4_3.rect t)).set ↔ _
  rw [View.set_slice_whole, Rect.mem_set_unit]
  exact Iff.rfl

/-- Every index of the output array is in the one point's block, which is written back. -/
private theorem head_cover (i : S256.Idx) :
    ∃ t : Fin cfg4.N, (cfg4.win 3).flush t = true ∧ i ∈ ((cfg4.win 3).blk t).view.set := by
  refine ⟨t4_0, flush4_3 t4_0, ?_⟩
  rw [head_mem_blk]
  obtain ⟨e00, e01, e10, e11, e20, e21, e3⟩ := head_idx_facts t4_0
  intro a
  match a with
  | ⟨0, _⟩ =>
    show win4_3.index t4_0 (0 : Fin 1) * 256 ≤ (i 0).val ∧ (i 0).val < win4_3.index t4_0 (0 : Fin 1) * 256 + 256
    have hi : (i 0).val < 256 := (i 0).isLt
    omega

theorem region4_value (c : Dev nD) :
    (dat4 (F := Ideal) V c).arrAt 3 cfg4.N = GcnSpec.head (V c main_v73) (V c main_arg7) (V c main_v74) :=
  (dat4 (F := Ideal) V c).arrAt_eq_of_cover 3 (GcnSpec.head (V c main_v73) (V c main_arg7) (V c main_v74))
    (fun t _ => head_flushed V c t) head_cover

end Cert.KernelIdeal.RegionValue

end
-- ==== Proof.RefForms.lean ====
/-
  The reference's stages (the reference program read one operation at a time) in the forms the kernel's regions are
  stated in. A feature product is the host's matrix product whatever record names its dimension numbers; a layer's
  "add the bias row to every row, then cut off at zero" is `GcnSpec.biasRelu` of the aggregated features and of the
  bias laid out as one row; the head "pooled features times the weight column, plus the scalar bias, as a vector" is
  `GcnSpec.head`. The bias reaches the reference by broadcasts ([64] to [1,64] to [100000,64]; [1] to [1,1] to
  [256,1]) and the kernel by a reshape ([64] to [1,64]; [1] to [1,1]): at an index both read the same entry.
-/
import proofs.«108966_j77704548319407_1_alg».proof.Proof.RefRead
import proofs.«108966_j77704548319407_1_alg».proof.Proof.Spec
import proofs.«108966_j77704548319407_1_alg».proof.Proof.LibDot2
import Idealize.ShloMosaic.Lib.Pipeline.Value
import Idealize.ShloMosaic.Lib.ValueIdx

noncomputable section

open scoped BigOperators

namespace Cert.ReferenceIdeal.Forms

open Cert.ReferenceIdeal Cert.ReferenceIdeal.ReadP Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x1, .f32⟩ : BufTy).Contents (Elt Ideal))
  (x8 : (⟨S1, .f32⟩ : BufTy).Contents (Elt Ideal))

/-- The first feature product is the host's product of the node features by the first weight. -/
theorem v30_form (wf : DotDims.WF ⟨2, ![100000, 128]⟩ ⟨2, ![128, 64]⟩ ⟨2, ![100000, 64]⟩ [1] [0] [0] [1] [] []) :
    val_main_v30 (F := Ideal) x0 x3
      = Host.dotGeneral (F := Ideal) (φ₁ := .f32) (φ₂ := .f32) (Dot2.mmDims 100000 128 64 wf) none x0 x3 := rfl

/-- The second feature product is the host's product of the first layer's output by the second weight. -/
theorem v48_form (wf : DotDims.WF ⟨2, ![100000, 64]⟩ ⟨2, ![64, 64]⟩ ⟨2, ![100000, 64]⟩ [1] [0] [0] [1] [] []) :
    val_main_v48 (F := Ideal) x0 x1 x3 x4 x5
      = Host.dotGeneral (F := Ideal) (φ₁ := .f32) (φ₂ := .f32) (Dot2.mmDims 100000 64 64 wf) none
          (val_main_v47 (F := Ideal) x0 x1 x3 x4) x5 := rfl

/-- A vector laid out as one row, read at `(0, q)`, is its entry `q`. -/
theorem row_apply (b : (⟨1, ![64]⟩ : Shape).Idx → EReal) (h : (⟨1, ![64]⟩ : Shape).ShapeCasts ⟨2, ![1, 64]⟩) (q : Fin 64) :
    shapeCast ⟨2, ![1, 64]⟩ b h (ix2 (0 : Fin 1) q) = b (ix1 q) := by
  refine (shapeCast_apply b h (ix2 (0 : Fin 1) q) (ix1 q) ?_)
  rw [Shape.rowMajor_val_two, Shape.rowMajor_val_one]
  show q.val = 0 * 64 + q.val
  omega

/-- A one-entry vector laid out as a one-by-one array, read at `(0, 0)`, is its entry. -/
theorem cell_apply (b : (⟨1, ![1]⟩ : Shape).Idx → EReal) (h : (⟨1, ![1]⟩ : Shape).ShapeCasts ⟨2, ![1, 1]⟩) :
    shapeCast ⟨2, ![1, 1]⟩ b h (ix2 (0 : Fin 1) (0 : Fin 1)) = b (ix1 (0 : Fin 1)) := by
  refine (shapeCast_apply b h (ix2 (0 : Fin 1) (0 : Fin 1)) (ix1 (0 : Fin 1)) ?_)
  rw [Shape.rowMajor_val_two, Shape.rowMajor_val_one]
  rfl

/-- The first layer's output: the aggregated features plus the bias row, cut off at zero. -/
theorem v47_form (h : (⟨1, ![64]⟩ : Shape).ShapeCasts ⟨2, ![1, 64]⟩) :
    val_main_v47 (F := Ideal) x0 x1 x3 x4
      = GcnSpec.biasRelu (val_main_v43 (F := Ideal) x0 x1 x3) (shapeCast ⟨2, ![1, 64]⟩ x4 h) := by
  funext i
  rw [val_main_v47_apply, val_main_v46_apply, val_main_v45_apply, val_main_v44_apply, val_main_call1_v0_apply,
    val_main_call1_cst_apply]
  unfold GcnSpec.biasRelu
  rw [row_apply x4 h (i 1)]
  refine congrArg₂ FloatOps.maximumf (congrArg₂ FloatOps.addf rfl (congrArg x4 ?_)) rfl
  funext a; apply Fin.ext
  match a with
  | ⟨0, _⟩ => rfl

/-- The second layer's output: the aggregated features plus the bias row, cut off at zero. -/
theorem v65_form (h : (⟨1, ![64]⟩ : Shape).ShapeCasts ⟨2, ![1, 64]⟩) :
    val_main_v65 (F := Ideal) x0 x1 x3 x4 x5 x6
      = GcnSpec.biasRelu (val_main_v61 (F := Ideal) x0 x1 x3 x4 x5) (shapeCast ⟨2, ![1, 64]⟩ x6 h) := by
  funext i
  rw [val_main_v65_apply, val_main_v64_apply, val_main_v63_apply, val_main_v62_apply, val_main_call2_v0_apply,
    val_main_call2_cst_apply]
  unfold GcnSpec.biasRelu
  rw [row_apply x6 h (i 1)]
  refine congrArg₂ FloatOps.maximumf (congrArg₂ FloatOps.addf rfl (congrArg x6 ?_)) rfl
  funext a; apply Fin.ext
  match a with
  | ⟨0, _⟩ => rfl

/-- The result: the pooled features times the head's weight column, plus the head's bias, as a vector. -/
theorem v82_form (h : (⟨1, ![1]⟩ : Shape).ShapeCasts ⟨2, ![1, 1]⟩) :
    val_main_v82 (F := Ideal) x0 x1 x2 x3 x4 x5 x6 x7 x8
      = GcnSpec.head (val_main_v77 (F := Ideal) x0 x1 x2 x3 x4 x5 x6) x7 (shapeCast ⟨2, ![1, 1]⟩ x8 h) := by
  funext i
  obtain ⟨g, rfl⟩ : ∃ g : Fin 256, i = ix1 g := ⟨i 0, eq_ix1 i⟩
  rw [val_main_v82_apply, val_main_v81_apply, val_main_v78_apply, val_main_v80_apply, val_main_v79_apply]
  unfold GcnSpec.head
  rw [cell_apply x8 h]
  refine congrArg₂ FloatOps.addf (Finset.sum_congr rfl fun k _ => ?_) ?_
  · refine congrArg₂ (· * ·) (congrArg _ ?_) (congrArg _ ?_)
    · funext a; apply Fin.ext
      match a with
      | ⟨0, _⟩ => show g.val / 1 = g.val; omega
      | ⟨1, _⟩ => rfl
    · funext a; apply Fin.ext
      match a with
      | ⟨0, _⟩ => rfl
      | ⟨1, _⟩ => rfl
  · refine congrArg x8 ?_
    funext a; apply Fin.ext
    match a with
    | ⟨0, _⟩ => rfl

end Cert.ReferenceIdeal.Forms

end
-- ==== Proof.Chain.lean ====
/-
  The kernel program's result as the reference's last stage of the same arguments.

  The program is eleven segments: host operations, then the first feature product (a kernel region), the message
  passing on the host, bias and cut-off (a region), the second feature product (a region), message passing again,
  bias and cut-off (a region), mean pooling on the host, and the linear head (a region). Walking the boundaries in
  order, the buffer each later segment reads holds the reference's stage of the launch arguments:
  after the first product `x · W1`; after the first message passing `Â (x · W1)`; after the first layer
  `h1 = max (Â (x · W1) + b1) 0`; then `h1 · W2`, `Â (h1 · W2)`, `h2 = max (Â (h1 · W2) + b2) 0`; the
  pooled means of `h2` by graph; and at the end `pooled · Wh + bh`. A region's output array is one whole-array
  function of its input arrays (the region lemmas), the host stretches are the reference's own operations, and the
  buffers a later segment reads are not written in between.
-/
import proofs.«108966_j77704548319407_1_alg».proof.Proof.Persist
import proofs.«108966_j77704548319407_1_alg».proof.Proof.HostEntry
import proofs.«108966_j77704548319407_1_alg».proof.Proof.HostLayers
import proofs.«108966_j77704548319407_1_alg».proof.Proof.RegionMatmul
import proofs.«108966_j77704548319407_1_alg».proof.Proof.RegionBias
import proofs.«108966_j77704548319407_1_alg».proof.Proof.RegionHead
import proofs.«108966_j77704548319407_1_alg».proof.Proof.RefForms

set_option maxRecDepth 16384

noncomputable section

namespace Cert.KernelIdeal.Stages

open Cert.KernelIdeal Cert.KernelIdeal.Gen Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

/-- After the first region: `x · W1`. -/
theorem W4_v30 : W4 m ρ c (Proc.devRef .tc main_v30) = Cert.ReferenceIdeal.ReadP.val_main_v30 (F := Ideal) (m ((c : Thread nD τ).loc main_arg0)) (m ((c : Thread nD τ).loc main_arg3)) := by
  have wf : DotDims.WF ⟨2, ![100000, 128]⟩ ⟨2, ![128, 64]⟩ ⟨2, ![100000, 64]⟩ [1] [0] [0] [1] [] [] := by decide
  rw [Cert.ReferenceIdeal.Forms.v30_form _ _ wf]
  refine ((W4_arr m ρ c 2).trans (region0_value (V3 m ρ) wf c)).trans ?_
  exact congrArg₂ (Host.dotGeneral (F := Ideal) (φ₁ := .f32) (φ₂ := .f32) (Dot2.mmDims 100000 128 64 wf) none)
    (W3_arg0 m ρ c) (W3_arg3 m ρ c)

/-- After the first message passing: the aggregated `x · W1`. -/
theorem W5_v43_eq : W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg3)) :=
  W5_v43 m ρ c (W4_v30 m ρ c) ((W4_keep_v5 m ρ c).trans (W3_v5 m ρ c)) ((W4_keep_v6 m ρ c).trans (W3_v6 m ρ c))
    ((W4_keep_v29 m ρ c).trans (W3_v29 m ρ c))

/-- The first bias as one row. -/
theorem W5_v44_eq : W5 m ρ c (Proc.devRef .tc main_v44) = shapeCast S1x64 (m ((c : Thread nD τ).loc main_arg4)) shapeCasts_S64_S1x64 :=
  W5_v44 m ρ c ((W4_keep_arg4 m ρ c).trans (W3_arg4 m ρ c))

/-- After the second region: the first layer's output `h1`. -/
theorem W6_v45 : W6 m ρ c (Proc.devRef .tc main_v45) = Cert.ReferenceIdeal.ReadP.val_main_v47 (F := Ideal) (m ((c : Thread nD τ).loc main_arg0)) (m ((c : Thread nD τ).loc main_arg1)) (m ((c : Thread nD τ).loc main_arg3)) (m ((c : Thread nD τ).loc main_arg4)) := by
  rw [Cert.ReferenceIdeal.Forms.v47_form _ _ _ _ shapeCasts_S64_S1x64]
  refine ((W6_arr m ρ c 2).trans (region1_value (V5 m ρ) c)).trans ?_
  exact congrArg₂ GcnSpec.biasRelu (W5_v43_eq m ρ c) (W5_v44_eq m ρ c)

/-- After the third region: `h1 · W2`. -/
theorem W7_v46 : W7 m ρ c (Proc.devRef .tc main_v46) = Cert.ReferenceIdeal.ReadP.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  have wf : DotDims.WF ⟨2, ![100000, 64]⟩ ⟨2, ![64, 64]⟩ ⟨2, ![100000, 64]⟩ [1] [0] [0] [1] [] [] := by decide
  rw [Cert.ReferenceIdeal.Forms.v48_form _ _ _ _ _ wf]
  refine ((W7_arr m ρ c 2).trans (region2_value (V6 m ρ) wf c)).trans ?_
  exact congrArg₂ (Host.dotGeneral (F := Ideal) (φ₁ := .f32) (φ₂ := .f32) (Dot2.mmDims 100000 64 64 wf) none)
    (W6_v45 m ρ c) ((W6_keep_arg5 m ρ c).trans (W3_arg5 m ρ c))

/-- After the second message passing: the aggregated `h1 · W2`. -/
theorem W8_v59_eq : W8 m ρ c (Proc.devRef .tc main_v59) = Cert.ReferenceIdeal.ReadP.val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  W8_v59 m ρ c (W7_v46 m ρ c) ((W7_keep_v5 m ρ c).trans (W3_v5 m ρ c)) ((W7_keep_v6 m ρ c).trans (W3_v6 m ρ c))
    ((W7_keep_v29 m ρ c).trans (W3_v29 m ρ c))

/-- The second bias as one row. -/
theorem W8_v60_eq : W8 m ρ c (Proc.devRef .tc main_v60) = shapeCast S1x64 (m ((c : Thread nD τ).loc main_arg6)) shapeCasts_S64_S1x64 :=
  W8_v60 m ρ c ((W7_keep_arg6 m ρ c).trans (W3_arg6 m ρ c))

/-- After the fourth region: the second layer's output `h2`. -/
theorem W9_v61 : W9 m ρ c (Proc.devRef .tc main_v61) = Cert.ReferenceIdeal.ReadP.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [Cert.ReferenceIdeal.Forms.v65_form _ _ _ _ _ _ shapeCasts_S64_S1x64]
  refine ((W9_arr m ρ c 2).trans (region3_value (V8 m ρ) c)).trans ?_
  exact congrArg₂ GcnSpec.biasRelu (W8_v59_eq m ρ c) (W8_v60_eq m ρ c)

/-- After the pooling: the mean of `h2` over each graph's nodes. -/
theorem W10_v73_eq : W10 m ρ c (Proc.devRef .tc main_v73) = Cert.ReferenceIdeal.ReadP.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  W10_v73 m ρ c (W9_v61 m ρ c) ((W9_keep_arg2 m ρ c).trans (W3_arg2 m ρ c))

/-- The head's bias as a one-by-one array. -/
theorem W10_v74_eq : W10 m ρ c (Proc.devRef .tc main_v74) = shapeCast S1x1 (m ((c : Thread nD τ).loc main_arg8)) shapeCasts_S1_S1x1 :=
  W10_v74 m ρ c ((W9_keep_arg8 m ρ c).trans (W3_arg8 m ρ c))

/-- After the last region the result buffer holds the reference's result of the same arguments. -/
theorem final_value : W11 m ρ c (Proc.devRef .tc main_v75)
    = Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Cert.ReferenceIdeal.Forms.v82_form _ _ _ _ _ _ _ _ _ shapeCasts_S1_S1x1]
  refine ((W11_arr m ρ c 3).trans (region4_value (V10 m ρ) c)).trans ?_
  have e1 := W10_v73_eq m ρ c
  have e2 := (W10_keep_arg7 m ρ c).trans (W3_arg7 m ρ c)
  have e3 := W10_v74_eq m ρ c
  show GcnSpec.head (W10 m ρ c (Proc.devRef .tc main_v73)) (W10 m ρ c (Proc.devRef .tc main_arg7)) (W10 m ρ c (Proc.devRef .tc main_v74)) = _
  rw [e1, e2, e3]

end Cert.KernelIdeal.Stages

end
-- ==== Proof.lean ====
/-
  A two-layer graph convolution network with mean pooling and a linear head, as a program of five kernel regions
  among host operations, against its plain reference: equivalence over the extended reals.

  With `Â` the normalised adjacency with self loops (built on the host from the edge list: in-degrees by a
  scatter-add of ones, their inverse square roots, gathered at both ends of every edge and multiplied; a layer's
  aggregation is a gather of the source rows, a scaling, and a scatter-add at the destinations), the reference computes
      h1 = max (Â (x · W1) + b1) 0,   h2 = max (Â (h1 · W2) + b2) 0,
      out = (mean of h2 over each graph's nodes) · Wh + bh.
  The kernel program computes the two feature products, the two "add the bias row, cut off at zero" steps and the head
  in kernel regions tiled over row blocks, and everything else by the reference's own host operations. At the ideal
  instance a change of float format is the identity and a matrix product accumulated into zero is the plain sum of
  products, so every region's output array is the reference's stage of the same inputs, index by index, and the two
  programs end with equal results from memories that agree on the arguments. Neither side's arithmetic is ever
  reordered, so the precondition (finite inputs) is not used.

  The frames of the two kernel programs are the generated frame certificates; the reference's frame is its run with
  the result dropped; the idealization rewrote no operation, so there is nothing to preserve.
-/
import proofs.«108966_j77704548319407_1_alg».proof.Defs
import proofs.«108966_j77704548319407_1_alg».proof.Proof.Gen.Kernel
import proofs.«108966_j77704548319407_1_alg».proof.Proof.Gen.Kernel.Frame
import proofs.«108966_j77704548319407_1_alg».proof.Proof.Gen.KernelIdeal
import proofs.«108966_j77704548319407_1_alg».proof.Proof.Gen.KernelIdeal.Frame
import proofs.«108966_j77704548319407_1_alg».proof.Proof.Gen.ReferenceIdeal
import proofs.«108966_j77704548319407_1_alg».proof.Proof.Gen.Pre_finite_inputs
import proofs.«108966_j77704548319407_1_alg».proof.Proof.KernelRun
import proofs.«108966_j77704548319407_1_alg».proof.Proof.RefRun
import proofs.«108966_j77704548319407_1_alg».proof.Proof.RefRead
import proofs.«108966_j77704548319407_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the reference's last stage of the kernel's argument arrays: the kernel program by the walk
    through its segments, the reference by its run read as stages, its arguments rewritten by the agreement. -/
theorem algebraic : Cert.algebraic_KernelIdeal_ReferenceIdeal := by
  intro m ρ m' ρ' _ hagree
  refine ⟨fun c => Cert.ReferenceIdeal.ReadP.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Stages.final_value m ρ c), (h c).2⟩)
      (Cert.KernelIdeal.ValueRun.run m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8⟩ := hagree c
    rw [Cert.ReferenceIdeal.ReadP.val_main_v82_eq m' c, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
